-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S1600000x128 : Shape := ⟨2, ![1600000, 128]⟩
abbrev S1x128 : Shape := ⟨2, ![1, 128]⟩
abbrev S4000x1 : Shape := ⟨2, ![4000, 1]⟩
abbrev S1x1 : Shape := ⟨2, ![1, 1]⟩

abbrev nBuf : Space → Nat
  | .hbm => 115
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x1, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000, .f32⟩
  | .hbm, ⟨83, _⟩ => ⟨S1600000, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S1600000x1, .f32⟩
  | .hbm, ⟨94, _⟩ => ⟨S1600000x128, .f32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x1, .f32⟩
  | .hbm, ⟨103, _⟩ => ⟨S1x1, .f32⟩
  | .hbm, ⟨104, _⟩ => ⟨S100000x1, .f32⟩
  | .hbm, ⟨105, _⟩ => ⟨S100000x1, .f32⟩
  | .hbm, ⟨106, _⟩ => ⟨S100000x1, .f32⟩
  | .hbm, ⟨107, _⟩ => ⟨S100000x1, .f32⟩
  | .hbm, ⟨108, _⟩ => ⟨S_, .f32⟩
  | .hbm, ⟨109, _⟩ => ⟨S100000x1, .f32⟩
  | .hbm, ⟨110, _⟩ => ⟨S100000x1, .f32⟩
  | .hbm, ⟨111, _⟩ => ⟨S_, .f32⟩
  | .hbm, ⟨112, _⟩ => ⟨S100000x1, .f32⟩
  | .hbm, ⟨113, _⟩ => ⟨S100000x1, .f32⟩
  | .hbm, ⟨114, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_16 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .f32⟩
  | 23 => ⟨S100000, .f32⟩
  | 24 => ⟨S100000, .f32⟩
  | 25 => ⟨S100000x128, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x1, .f32⟩
  | 101 => ⟨S1600000x128, .f32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S100000x1, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x1, .f32⟩
  | 118 => ⟨S1x1, .f32⟩
  | 119 => ⟨S100000x1, .f32⟩
  | 120 => ⟨S100000x1, .f32⟩
  | 121 => ⟨S100000x1, .f32⟩
  | 122 => ⟨S100000x1, .f32⟩
  | 123 => ⟨S_, .f32⟩
  | 124 => ⟨S100000x1, .f32⟩
  | 125 => ⟨S100000x1, .f32⟩
  | 126 => ⟨S_, .f32⟩
  | 127 => ⟨S100000x1, .f32⟩
  | _ => ⟨S100000x128, .f32⟩

abbrev hbmTy0_1 (i : Nat) : BufTy := match i % 128 with
  | 0 => ⟨S100000x1, .f32⟩
  | 1 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call1_cst : Ref sig .tc := ⟨.hbm, 114, rfl⟩
abbrev main_call1_v0 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_16 : Ref sig .tc := ⟨.hbm, 123, rfl⟩
abbrev main_v93 : Ref sig .tc := ⟨.hbm, 124, rfl⟩
abbrev main_v94 : Ref sig .tc := ⟨.hbm, 125, rfl⟩
abbrev main_cst_17 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  The two array functions the graph network is built from, as functions of whole arrays of extended reals.

  `rowsTimes x w` is the matrix product of a 100000 × 128 array with a 128 × 128 array: entry (r, j) is the sum over k of
  x(r, k) · w(k, j).  `selfLoopRelu h agg col row` is one layer's combination: entry (r, j) is
  max((agg(r, j) + h(r, j) · col(r, 0)) + row(0, j), 0) — the neighbours' sum, the node's own row scaled by its
  reciprocal degree (a column), the bias (a row), clipped at zero.
-/
import Idealize.ShloMosaic.Lib.ValueIdx
import Idealize.ShloMosaic.PureOps.Ideal.Laws

noncomputable section

namespace Cert.Net

open Idealize.ShloMosaic Idealize.ShloMosaic.ValueIdx
open scoped BigOperators

/-- Row `r`, column `k` of a 100000 × 128 array, from an index whose row is used. -/
abbrev rowAt (i : (⟨2, ![100000, 128]⟩ : Shape).Idx) (k : Fin 128) : (⟨2, ![100000, 128]⟩ : Shape).Idx := fun a => match a with
  | ⟨0, _⟩ => ⟨(i 0).val, (i 0).isLt⟩
  | ⟨1, _⟩ => ⟨k.val, k.isLt⟩

/-- Row `k`, column `j` of a 128 × 128 array, from an index whose column is used. -/
abbrev colAt (i : (⟨2, ![100000, 128]⟩ : Shape).Idx) (k : Fin 128) : (⟨2, ![128, 128]⟩ : Shape).Idx := fun a => match a with
  | ⟨0, _⟩ => ⟨k.val, k.isLt⟩
  | ⟨1, _⟩ => ⟨(i 1).val, (i 1).isLt⟩

/-- The product x · w, entry by entry. -/
def rowsTimes (x : (⟨2, ![100000, 128]⟩ : Shape).Idx → EReal) (w : (⟨2, ![128, 128]⟩ : Shape).Idx → EReal) :
    (⟨2, ![100000, 128]⟩ : Shape).Idx → EReal :=
  fun i => ∑ k : Fin 128, x (rowAt i k) * w (colAt i k)

/-- Entry (r, 0) of a column, from an index whose row is used. -/
abbrev colEntry (i : (⟨2, ![100000, 128]⟩ : Shape).Idx) : (⟨2, ![100000, 1]⟩ : Shape).Idx := fun a => match a with
  | ⟨0, _⟩ => ⟨(i 0).val, (i 0).isLt⟩
  | ⟨1, _⟩ => ⟨0, Nat.one_pos⟩

/-- Entry (0, j) of a row, from an index whose column is used. -/
abbrev rowEntry (i : (⟨2, ![100000, 128]⟩ : Shape).Idx) : (⟨2, ![1, 128]⟩ : Shape).Idx := fun a => match a with
  | ⟨0, _⟩ => ⟨0, Nat.one_pos⟩
  | ⟨1, _⟩ => ⟨(i 1).val, (i 1).isLt⟩

/-- One layer's combination, entry by entry: max((agg + h · col) + row, 0). -/
def selfLoopRelu (h agg : (⟨2, ![100000, 128]⟩ : Shape).Idx → EReal) (col : (⟨2, ![100000, 1]⟩ : Shape).Idx → EReal)
    (row : (⟨2, ![1, 128]⟩ : Shape).Idx → EReal) : (⟨2, ![100000, 128]⟩ : Shape).Idx → EReal :=
  fun i => max ((agg i + h i * col (colEntry i)) + row (rowEntry i)) 0

end Cert.Net

end
-- ==== Proof.MatmulRegion.lean ====
/-
  The two matrix-product regions: each output array ends as the product of its two input arrays.

  Each region walks 25 points; point t takes rows 4000·t … 4000·t + 3999 of the 100000 × 128 left operand, multiplies that
  block by the whole 128 × 128 right operand, and writes the 4000 × 128 result back over the same rows of the output.
  Entry (p, q) of a block's product is ∑ k, block(p, k) · w(k, q); row p of block t is row 4000·t + p of the array, so
  the entry is entry (4000·t + p, q) of the whole product, and the 25 blocks of rows tile the 100000 rows.
-/
import proofs.«117243_j2456721293532_1_alg».proof.Proof.Gen.KernelIdeal.Frame
import proofs.«117243_j2456721293532_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The product of one block of 4000 rows with the 128 × 128 array, entry by entry -/

/-- The left operand is read at the result's row: axis 0 of the left operand is not contracted. -/
theorem blockLhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and at the summation index on its axis 1, the contracted one. -/
theorem blockLhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand is read at the summation index on its axis 0, the contracted one, -/
theorem blockRhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and at the result's column on its axis 1. -/
theorem blockRhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Row `i 0`, column `k` of a block of 4000 rows. -/
abbrev blockRowAt (i : S4000x128.Idx) (k : Fin 128) : S4000x128.Idx := fun a => match a with
  | ⟨0, _⟩ => ⟨(i 0).val, (i 0).isLt⟩
  | ⟨1, _⟩ => ⟨k.val, k.isLt⟩
/-- Row `k`, column `i 1` of the 128 × 128 array. -/
abbrev blockColAt (i : S4000x128.Idx) (k : Fin 128) : S128x128.Idx := fun a => match a with
  | ⟨0, _⟩ => ⟨k.val, k.isLt⟩
  | ⟨1, _⟩ => ⟨(i 1).val, (i 1).isLt⟩

/-- The first region's block product at an entry: over the extended reals the narrowing of both operands is the identity
    and the product accumulated into zero is the plain sum over the 128 contracted positions. -/
theorem blockProduct0_apply (x0 : Vec Ideal S4000x128 .f32) (x1 : Vec Ideal S128x128 .f32) (i : S4000x128.Idx) :
    k0_pay1 (F := Ideal) x0 x1 i = ∑ k : Fin 128, x0 (blockRowAt i k) * x1 (blockColAt i k) := by
  unfold k0_pay1
  refine (Ideal.matmul_constant_zero_apply dot_S4000x128_S128x128_S4000x128_1_0_0_1_n_n none _ _ i).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx i ((ValueIdx.contrEquiv1 dot_S4000x128_S128x128_S4000x128_1_0_0_1_n_n 128 rfl rfl).symm k) = blockRowAt i k := funext fun a => Fin.ext (by
    match a with
    | ⟨0, _⟩ => exact blockLhs_row _ _
    | ⟨1, _⟩ => exact (blockLhs_col _ _).trans hk)
  have er : dot_S4000x128_S128x128_S4000x128_1_0_0_1_n_n.rhsIdx i ((ValueIdx.contrEquiv1 dot_S4000x128_S128x128_S4000x128_1_0_0_1_n_n 128 rfl rfl).symm k) = blockColAt i k := funext fun a => Fin.ext (by
    match a with
    | ⟨0, _⟩ => exact (blockRhs_row _ _).trans hk
    | ⟨1, _⟩ => exact blockRhs_col _ _)
  rw [truncf_apply, truncf_apply, el, er]

/-- A block's product, entry `y`, is entry `i` of the whole product `X · W` when row `y 0` of the block is row `i 0` of
    `X` and the block's 128 × 128 operand is `W`, column `y 1` being column `i 1`. -/
theorem blockProduct0_eq_rowsTimes (X : (⟨2, ![100000, 128]⟩ : Shape).Idx → EReal) (W : (⟨2, ![128, 128]⟩ : Shape).Idx → EReal)
    (x0 : Vec Ideal S4000x128 .f32) (x1 : Vec Ideal S128x128 .f32) (i : (⟨2, ![100000, 128]⟩ : Shape).Idx) (y : S4000x128.Idx)
    (h0 : ∀ k : Fin 128, x0 (blockRowAt y k) = X (Cert.Net.rowAt i k))
    (h1 : ∀ k : Fin 128, x1 (blockColAt y k) = W (Cert.Net.colAt i k)) :
    k0_pay1 (F := Ideal) x0 x1 y = Cert.Net.rowsTimes X W i := by
  rw [blockProduct0_apply]
  exact Finset.sum_congr rfl fun k _ => by rw [h0 k, h1 k]

/-- The second region first reshapes its block of rows to the block's own shape, which changes nothing: its block product
    is the first region's. -/
theorem blockProduct2_eq (x0 : Vec Ideal S4000x128 .f32) (x1 : Vec Ideal S128x128 .f32) :
    k2_pay1 (F := Ideal) x0 x1 = k0_pay1 (F := Ideal) x0 x1 := by
  unfold k2_pay1 k0_pay1
  rw [shapeCast_self]

/-- The same reading of a block's product as an entry of the whole product, for the second region. -/
theorem blockProduct2_eq_rowsTimes (X : (⟨2, ![100000, 128]⟩ : Shape).Idx → EReal) (W : (⟨2, ![128, 128]⟩ : Shape).Idx → EReal)
    (x0 : Vec Ideal S4000x128 .f32) (x1 : Vec Ideal S128x128 .f32) (i : (⟨2, ![100000, 128]⟩ : Shape).Idx) (y : S4000x128.Idx)
    (h0 : ∀ k : Fin 128, x0 (blockRowAt y k) = X (Cert.Net.rowAt i k))
    (h1 : ∀ k : Fin 128, x1 (blockColAt y k) = W (Cert.Net.colAt i k)) :
    k2_pay1 (F := Ideal) x0 x1 y = Cert.Net.rowsTimes X W i := by
  rw [blockProduct2_eq]
  exact blockProduct0_eq_rowsTimes X W x0 x1 i y h0 h1

/-! ## Where the 25 points read and write -/

theorem zeros2 : (![0, 0] : Fin 2 → Nat) = fun _ => 0 := funext fun a => by fin_cases a <;> rfl

/-- The first region's index maps over its 25 points: the block of rows the left operand's window reads is the block of
    rows the result's window writes, both in column block 0; the right operand's window is always the whole 128 × 128
    array; and point `t` works on row block `t`. -/
theorem rowBlocks0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The second region's index maps over its 25 points, as the first's. -/
theorem rowBlocks2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- An index of the first region's result array is in point `t`'s block iff each coordinate is in the block's range on
    its axis. -/
theorem mem_rowBlock0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v14).slice (win0_2.rect t)).set ↔ _
  rw [View.set_slice_whole, Rect.mem_set_unit]
  exact Iff.rfl

/-- The same for the second region's result array. -/
theorem mem_rowBlock2 (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v45).slice (win2_2.rect t)).set ↔ _
  rw [View.set_slice_whole, Rect.mem_set_unit]
  exact Iff.rfl

/-- Row `r` lies in the block of point `r / 4000`, and every point writes its block back: the 25 blocks of 4000 rows tile
    the 100000 rows of the first region's result. -/
theorem rowBlocks0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, lt_of_lt_of_eq (by omega) N_0.symm⟩, rfl⟩
  obtain ⟨-, -, -, -, e4, e5⟩ := rowBlocks0 t
  refine ⟨t, flush0_2 t, ?_⟩
  rw [mem_rowBlock0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The same tiling of the second region's result. -/
theorem rowBlocks2_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 4000 :=
    ⟨⟨(i 0).val / 4000, lt_of_lt_of_eq (by omega) N_2.symm⟩, rfl⟩
  obtain ⟨-, -, -, -, e4, e5⟩ := rowBlocks2 t
  refine ⟨t, flush2_2 t, ?_⟩
  rw [mem_rowBlock2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

variable (V : (c : Dev nD) → (b : Ref sig .tc) → Buf (Elt Ideal) ((c : Thread nD τ).loc b))

/-! ## What each point writes back, and the arrays after the regions -/

/-- What point `t` of the first region writes back is block `t` of the product of the two arrays as the region finds them:
    entry (p, q) of the block's product reads row p of the left operand's block, which is row 4000·t + p of the array,
    and column q of the whole right operand. -/
theorem product0_flushed (c : Dev nD) (t : Fin cfg0.N) :
    (dat0 (F := Ideal) V c).flushed 2 t
      = ((cfg0.win 2).blk t).view.read (Elt Ideal) (Cert.Net.rowsTimes (V c main_arg0) (V c main_arg2)) := by
  show (cfg0.win 2).cut (grid0.coords t) ((dat0 (F := Ideal) V c).after 2 t) = _
  rw [after0_2]
  unfold out0_2
  rw [View.canon_unit_zero zeros2]
  simp only [View.ld_unit_zero (S := S4000x128) zeros2, View.ld_unit_zero (S := S128x128) zeros2]
  obtain ⟨e0, e1, e2, e3, e4, e5⟩ := rowBlocks0 t
  funext j
  show k0_pay1 (F := Ideal) (iblk0 V c 0 t) (iblk0 V c 1 t) ((cfg0.win 2).xinj (grid0.coords t) j)
    = Cert.Net.rowsTimes (V c main_arg0) (V c main_arg2) (((cfg0.win 2).blk t).view.emb j)
  refine blockProduct0_eq_rowsTimes (V c main_arg0) (V c main_arg2) (iblk0 V c 0 t) (iblk0 V c 1 t)
    (((cfg0.win 2).blk t).view.emb j) ((cfg0.win 2).xinj (grid0.coords t) j) ?_ ?_
  · intro k
    show V c main_arg0 (((cfg0.win 0).blk t).view.emb (blockRowAt ((cfg0.win 2).xinj (grid0.coords t) j) k))
      = V c main_arg0 (Cert.Net.rowAt (((cfg0.win 2).blk t).view.emb j) k)
    refine congrArg (V c main_arg0) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * k.val = k.val; omega
  · intro k
    show V c main_arg2 (((cfg0.win 1).blk t).view.emb (blockColAt ((cfg0.win 2).xinj (grid0.coords t) j) k))
      = V c main_arg2 (Cert.Net.colAt (((cfg0.win 2).blk t).view.emb j) k)
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- What point `t` of the second region writes back is block `t` of the product of its two arrays, in the same way. -/
theorem product2_flushed (c : Dev nD) (t : Fin cfg2.N) :
    (dat2 (F := Ideal) V c).flushed 2 t
      = ((cfg2.win 2).blk t).view.read (Elt Ideal) (Cert.Net.rowsTimes (V c main_v44) (V c main_arg4)) := by
  show (cfg2.win 2).cut (grid2.coords t) ((dat2 (F := Ideal) V c).after 2 t) = _
  rw [after2_2]
  unfold out2_2
  rw [View.canon_unit_zero zeros2]
  simp only [View.ld_unit_zero (S := S4000x128) zeros2, View.ld_unit_zero (S := S128x128) zeros2]
  obtain ⟨e0, e1, e2, e3, e4, e5⟩ := rowBlocks2 t
  funext j
  show k2_pay1 (F := Ideal) (iblk2 V c 0 t) (iblk2 V c 1 t) ((cfg2.win 2).xinj (grid2.coords t) j)
    = Cert.Net.rowsTimes (V c main_v44) (V c main_arg4) (((cfg2.win 2).blk t).view.emb j)
  refine blockProduct2_eq_rowsTimes (V c main_v44) (V c main_arg4) (iblk2 V c 0 t) (iblk2 V c 1 t)
    (((cfg2.win 2).blk t).view.emb j) ((cfg2.win 2).xinj (grid2.coords t) j) ?_ ?_
  · intro k
    show V c main_v44 (((cfg2.win 0).blk t).view.emb (blockRowAt ((cfg2.win 2).xinj (grid2.coords t) j) k))
      = V c main_v44 (Cert.Net.rowAt (((cfg2.win 2).blk t).view.emb j) k)
    refine congrArg (V c main_v44) (funext fun a => Fin.ext ?_)
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 128 + 1 * k.val = k.val; omega
  · intro k
    show V c main_arg4 (((cfg2.win 1).blk t).view.emb (blockColAt ((cfg2.win 2).xinj (grid2.coords t) j) k))
      = V c main_arg4 (Cert.Net.colAt (((cfg2.win 2).blk t).view.emb j) k)
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- After the first region its result array is the product of the two arrays it was entered with: every point writes
    its block of the product, and the blocks tile the array. -/
theorem matmul0_final (c : Dev nD) :
    (dat0 (F := Ideal) V c).arrAt 2 cfg0.N = Cert.Net.rowsTimes (V c main_arg0) (V c main_arg2) :=
  (dat0 (F := Ideal) V c).arrAt_eq_of_cover 2 (Cert.Net.rowsTimes (V c main_arg0) (V c main_arg2))
    (fun t _ => product0_flushed V c t) rowBlocks0_cover

/-- After the second region its result array is the product of the two arrays it was entered with. -/
theorem matmul2_final (c : Dev nD) :
    (dat2 (F := Ideal) V c).arrAt 2 cfg2.N = Cert.Net.rowsTimes (V c main_v44) (V c main_arg4) :=
  (dat2 (F := Ideal) V c).arrAt_eq_of_cover 2 (Cert.Net.rowsTimes (V c main_v44) (V c main_arg4))
    (fun t _ => product2_flushed V c t) rowBlocks2_cover

end Cert.KernelIdeal.RegionValue

end
-- ==== Proof.LibColumns.lean ====
/-
  Column vectors and row sums read at an index.

  A vector of length a viewed as a column [a, 1]; a column broadcast along its unit axis to [a, b]; and the sum of a
  matrix along its second axis, read at a row.  Each reads ONE entry (or one row) of its operand, named here by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Columns

open Idealize.ShloMosaic Idealize.ShloMosaic.ValueIdx
open scoped BigOperators

variable {α : Type}

/-- A vector of length `a` viewed as a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, n]` matrix of extended reals along its second axis, started from the zero word and read at row
    `r`, is `∑ₖ v(r, k)`. -/
theorem multiReduction_add_row {a n : ℕ} (v : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ v 0x00000000#32 h hφ hacc (ix1 r) = ∑ k : Fin n, v (ix2 r k) := by
  refine (Ideal.multiReduction_add_single v 0x00000000#32 h hφ hacc (ix1 r)).trans ?_
  refine Finset.sum_congr rfl fun k _ => ?_
  exact congrArg v (funext fun ax => Fin.ext (by match ax with | ⟨0, _⟩ => rfl | ⟨1, _⟩ => rfl))

end Cert.Columns

end
-- ==== Proof.ReluRegion.lean ====
/-
  The two combining regions: each output array ends as the layer's combination of its four input arrays.

  Per region: the tile's payload read at an index; the index maps' relations over the 25 row tiles; what a point writes
  back is its tile of the combination of the whole arrays; the tiles cover the array; so the array ends as the
  combination.
-/
import proofs.«117243_j2456721293532_1_alg».proof.Proof.Gen.KernelIdeal.Frame
import proofs.«117243_j2456721293532_1_alg».proof.Proof.Spec
import proofs.«117243_j2456721293532_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The stores' and loads' offsets are all zero. -/
theorem reluZeroOffsets : (![0, 0] : Fin 2 → Nat) = fun _ => 0 := funext fun a => by fin_cases a <;> rfl

/-- The layer's combination with each operand read at a place of its own: what a tile's payload is before its four
    places are recognised as places of the arrays. -/
def reluCombineAt (h agg : S100000x128.Idx → EReal) (col : S100000x1.Idx → EReal) (row : S1x128.Idx → EReal)
    (ih iagg : S100000x128.Idx) (icol : S100000x1.Idx) (irow : S1x128.Idx) : EReal :=
  max ((agg iagg + h ih * col icol) + row irow) 0

/-! ## The first combining region -/

/-- The tile's payload read at (p, q): max((agg(p, q) + h(p, q) · col(p, 0)) + row(0, q), 0). The shape casts are
    identities, the column is broadcast along its unit axis, the bias row along the rows, and the zero word is 0. -/
theorem reluPay1_apply (x0 x1 : Vec Ideal S4000x128 .f32) (x2 : Vec Ideal S4000x1 .f32) (x3 : Vec Ideal S1x128 .f32)
    (p : Fin 4000) (q : Fin 128) :
    k1_pay1 x0 x1 x2 x3 (ix2 p q)
      = max ((x1 (ix2 p q) + x0 (ix2 p q) * x2 (ix2 p (0 : Fin 1))) + x3 (ix2 (0 : Fin 1) q)) 0 := by
  unfold k1_pay1
  simp only [shapeCast_self]
  show max ((x1 (ix2 p q) + x0 (ix2 p q) * broadcastTo S4000x128 x2 broadcasts_S4000x1_S4000x128 (ix2 p q))
      + broadcastTo S4000x128 x3 broadcasts_S1x128_S4000x128 (ix2 p q)) (Ideal.ofBits .f32 0x00000000#32) = _
  rw [Cert.Columns.broadcastTo_a1_ab_apply x2 broadcasts_S4000x1_S4000x128 p q,
    broadcastTo_1b_ab_apply x3 broadcasts_S1x128_S4000x128 p q, Ideal.ofBits_zero_f32]

/-- The printed index maps over the 25 grid points: the three row-tiled inputs move with the output's row tile, the bias
    row stays at its one block, and the output's row tile at point t is tile t. -/
theorem reluIdx1 : ∀ t : Fin cfg1.N, win1_0.index t (0 : Fin 2) = win1_4.index t (0 : Fin 2)
    ∧ win1_0.index t (1 : Fin 2) = win1_4.index t (1 : Fin 2)
    ∧ win1_1.index t (0 : Fin 2) = win1_4.index t (0 : Fin 2)
    ∧ win1_1.index t (1 : Fin 2) = win1_4.index t (1 : Fin 2)
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- What point t writes back is tile t of the layer's combination of the four arrays as the region finds them: the
    payload read at (p, q) takes h and agg at the same place of the tile, the column at (p, 0) and the bias at (0, q);
    each of those places of a tile is the array's place the output tile's rectangle names. -/
theorem reluFlushed1 (c : Dev nD) (t : Fin cfg1.N) :
    (dat1 (F := Ideal) V c).flushed 4 t = ((cfg1.win 4).blk t).view.read (Elt Ideal)
      (Cert.Net.selfLoopRelu (V c main_v14) (V c main_v42) (V c main_v13) (V c main_v43)) := by
  show (cfg1.win 4).cut (grid1.coords t) ((dat1 (F := Ideal) V c).after 4 t) = _
  rw [after1_4]
  unfold out1_4
  rw [View.canon_unit_zero reluZeroOffsets]
  simp only [View.ld_unit_zero (S := S4000x128) reluZeroOffsets, View.ld_unit_zero (S := S4000x1) reluZeroOffsets,
    View.ld_unit_zero (S := S1x128) reluZeroOffsets]
  funext j
  obtain ⟨p, q, rfl⟩ : ∃ (p : Fin 4000) (q : Fin 128), j = ix2 p q := ⟨j 0, j 1, eq_ix2 j⟩
  obtain ⟨e0, e1, e2, e3, e4, e5, e6, e7, e8, e9⟩ := reluIdx1 t
  have hp : p.val < 4000 := p.isLt
  have hq : q.val < 128 := q.isLt
  refine (reluPay1_apply (iblk1 V c 0 t) (iblk1 V c 1 t) (iblk1 V c 2 t) (iblk1 V c 3 t) p q).trans ?_
  show reluCombineAt (V c main_v14) (V c main_v42) (V c main_v13) (V c main_v43)
      (((cfg1.win 0).blk t).view.emb (ix2 p q)) (((cfg1.win 1).blk t).view.emb (ix2 p q))
      (((cfg1.win 2).blk t).view.emb (ix2 p (0 : Fin 1))) (((cfg1.win 3).blk t).view.emb (ix2 (0 : Fin 1) q))
    = reluCombineAt (V c main_v14) (V c main_v42) (V c main_v13) (V c main_v43)
      (((cfg1.win 4).blk t).view.emb (ix2 p q)) (((cfg1.win 4).blk t).view.emb (ix2 p q))
      (Cert.Net.colEntry (((cfg1.win 4).blk t).view.emb (ix2 p q)))
      (Cert.Net.rowEntry (((cfg1.win 4).blk t).view.emb (ix2 p q)))
  have h0 : ((cfg1.win 0).blk t).view.emb (ix2 p q) = ((cfg1.win 4).blk t).view.emb (ix2 p q) := by
    funext a; apply Fin.ext
    match a with
    | ⟨0, _⟩ => show win1_0.index t (0 : Fin 2) * 4000 + 1 * p.val = win1_4.index t (0 : Fin 2) * 4000 + 1 * p.val; omega
    | ⟨1, _⟩ => show win1_0.index t (1 : Fin 2) * 128 + 1 * q.val = win1_4.index t (1 : Fin 2) * 128 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 4000 + 1 * p.val = win1_4.index t (0 : Fin 2) * 4000 + 1 * p.val; omega
    | ⟨1, _⟩ => show win1_1.index t (1 : Fin 2) * 128 + 1 * q.val = win1_4.index t (1 : Fin 2) * 128 + 1 * q.val; omega
  have h2 : ((cfg1.win 2).blk t).view.emb (ix2 p (0 : Fin 1))
      = Cert.Net.colEntry (((cfg1.win 4).blk t).view.emb (ix2 p q)) := by
    funext a; apply Fin.ext
    match a with
    | ⟨0, _⟩ => show win1_2.index t (0 : Fin 2) * 4000 + 1 * p.val = win1_4.index t (0 : Fin 2) * 4000 + 1 * p.val; omega
    | ⟨1, _⟩ => show win1_2.index t (1 : Fin 2) * 1 + 1 * 0 = 0; omega
  have h3 : ((cfg1.win 3).blk t).view.emb (ix2 (0 : Fin 1) q)
      = Cert.Net.rowEntry (((cfg1.win 4).blk t).view.emb (ix2 p q)) := by
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  rw [h0, h1, h2, h3]

/-- A place of the array is in point t's tile iff each coordinate is in the tile's range on its axis. -/
theorem reluMemTile1 (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v44).slice (win1_4.rect t)).set ↔ _
  rw [View.set_slice_whole, Rect.mem_set_unit]
  exact Iff.rfl

/-- Row r of the array lies in the tile of point r / 4000, and every point writes its tile back. -/
theorem reluCover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have ht : (i 0).val / 4000 < 25 := by omega
  obtain ⟨-, -, -, -, -, -, -, -, e8, e9⟩ := reluIdx1 ⟨(i 0).val / 4000, ht⟩
  have e8' : win1_4.index ⟨(i 0).val / 4000, ht⟩ (0 : Fin 2) = (i 0).val / 4000 := e8
  refine ⟨⟨(i 0).val / 4000, ht⟩, flush1_4 _, ?_⟩
  rw [reluMemTile1]
  intro a
  match a with
  | ⟨0, _⟩ =>
    show win1_4.index ⟨(i 0).val / 4000, ht⟩ (0 : Fin 2) * 4000 ≤ (i 0).val
      ∧ (i 0).val < win1_4.index ⟨(i 0).val / 4000, ht⟩ (0 : Fin 2) * 4000 + 4000
    omega
  | ⟨1, _⟩ =>
    show win1_4.index ⟨(i 0).val / 4000, ht⟩ (1 : Fin 2) * 128 ≤ (i 1).val
      ∧ (i 1).val < win1_4.index ⟨(i 0).val / 4000, ht⟩ (1 : Fin 2) * 128 + 128
    omega

theorem relu1_final (c : Dev nD) :
    (dat1 (F := Ideal) V c).arrAt 4 cfg1.N = Cert.Net.selfLoopRelu (V c main_v14) (V c main_v42) (V c main_v13) (V c main_v43) :=
  (dat1 (F := Ideal) V c).arrAt_eq_of_cover 4
    (Cert.Net.selfLoopRelu (V c main_v14) (V c main_v42) (V c main_v13) (V c main_v43))
    (fun t _ => reluFlushed1 V c t) reluCover1

/-! ## The second combining region -/

/-- The tile's payload read at (p, q): max((agg(p, q) + h(p, q) · col(p, 0)) + row(0, q), 0). The shape casts are
    identities, the column is broadcast along its unit axis, the bias row along the rows, and the zero word is 0. -/
theorem reluPay3_apply (x0 x1 : Vec Ideal S4000x128 .f32) (x2 : Vec Ideal S4000x1 .f32) (x3 : Vec Ideal S1x128 .f32)
    (p : Fin 4000) (q : Fin 128) :
    k3_pay1 x0 x1 x2 x3 (ix2 p q)
      = max ((x1 (ix2 p q) + x0 (ix2 p q) * x2 (ix2 p (0 : Fin 1))) + x3 (ix2 (0 : Fin 1) q)) 0 := by
  unfold k3_pay1
  simp only [shapeCast_self]
  show max ((x1 (ix2 p q) + x0 (ix2 p q) * broadcastTo S4000x128 x2 broadcasts_S4000x1_S4000x128 (ix2 p q))
      + broadcastTo S4000x128 x3 broadcasts_S1x128_S4000x128 (ix2 p q)) (Ideal.ofBits .f32 0x00000000#32) = _
  rw [Cert.Columns.broadcastTo_a1_ab_apply x2 broadcasts_S4000x1_S4000x128 p q,
    broadcastTo_1b_ab_apply x3 broadcasts_S1x128_S4000x128 p q, Ideal.ofBits_zero_f32]

/-- The printed index maps over the 25 grid points: the three row-tiled inputs move with the output's row tile, the bias
    row stays at its one block, and the output's row tile at point t is tile t. -/
theorem reluIdx3 : ∀ t : Fin cfg3.N, win3_0.index t (0 : Fin 2) = win3_4.index t (0 : Fin 2)
    ∧ win3_0.index t (1 : Fin 2) = win3_4.index t (1 : Fin 2)
    ∧ win3_1.index t (0 : Fin 2) = win3_4.index t (0 : Fin 2)
    ∧ win3_1.index t (1 : Fin 2) = win3_4.index t (1 : Fin 2)
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

/-- What point t writes back is tile t of the layer's combination of the four arrays as the region finds them: the
    payload read at (p, q) takes h and agg at the same place of the tile, the column at (p, 0) and the bias at (0, q);
    each of those places of a tile is the array's place the output tile's rectangle names. -/
theorem reluFlushed3 (c : Dev nD) (t : Fin cfg3.N) :
    (dat3 (F := Ideal) V c).flushed 4 t = ((cfg3.win 4).blk t).view.read (Elt Ideal)
      (Cert.Net.selfLoopRelu (V c main_v45) (V c main_v73) (V c main_v13) (V c main_v74)) := by
  show (cfg3.win 4).cut (grid3.coords t) ((dat3 (F := Ideal) V c).after 4 t) = _
  rw [after3_4]
  unfold out3_4
  rw [View.canon_unit_zero reluZeroOffsets]
  simp only [View.ld_unit_zero (S := S4000x128) reluZeroOffsets, View.ld_unit_zero (S := S4000x1) reluZeroOffsets,
    View.ld_unit_zero (S := S1x128) reluZeroOffsets]
  funext j
  obtain ⟨p, q, rfl⟩ : ∃ (p : Fin 4000) (q : Fin 128), j = ix2 p q := ⟨j 0, j 1, eq_ix2 j⟩
  obtain ⟨e0, e1, e2, e3, e4, e5, e6, e7, e8, e9⟩ := reluIdx3 t
  have hp : p.val < 4000 := p.isLt
  have hq : q.val < 128 := q.isLt
  refine (reluPay3_apply (iblk3 V c 0 t) (iblk3 V c 1 t) (iblk3 V c 2 t) (iblk3 V c 3 t) p q).trans ?_
  show reluCombineAt (V c main_v45) (V c main_v73) (V c main_v13) (V c main_v74)
      (((cfg3.win 0).blk t).view.emb (ix2 p q)) (((cfg3.win 1).blk t).view.emb (ix2 p q))
      (((cfg3.win 2).blk t).view.emb (ix2 p (0 : Fin 1))) (((cfg3.win 3).blk t).view.emb (ix2 (0 : Fin 1) q))
    = reluCombineAt (V c main_v45) (V c main_v73) (V c main_v13) (V c main_v74)
      (((cfg3.win 4).blk t).view.emb (ix2 p q)) (((cfg3.win 4).blk t).view.emb (ix2 p q))
      (Cert.Net.colEntry (((cfg3.win 4).blk t).view.emb (ix2 p q)))
      (Cert.Net.rowEntry (((cfg3.win 4).blk t).view.emb (ix2 p q)))
  have h0 : ((cfg3.win 0).blk t).view.emb (ix2 p q) = ((cfg3.win 4).blk t).view.emb (ix2 p q) := by
    funext a; apply Fin.ext
    match a with
    | ⟨0, _⟩ => show win3_0.index t (0 : Fin 2) * 4000 + 1 * p.val = win3_4.index t (0 : Fin 2) * 4000 + 1 * p.val; omega
    | ⟨1, _⟩ => show win3_0.index t (1 : Fin 2) * 128 + 1 * q.val = win3_4.index t (1 : Fin 2) * 128 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 4000 + 1 * p.val = win3_4.index t (0 : Fin 2) * 4000 + 1 * p.val; omega
    | ⟨1, _⟩ => show win3_1.index t (1 : Fin 2) * 128 + 1 * q.val = win3_4.index t (1 : Fin 2) * 128 + 1 * q.val; omega
  have h2 : ((cfg3.win 2).blk t).view.emb (ix2 p (0 : Fin 1))
      = Cert.Net.colEntry (((cfg3.win 4).blk t).view.emb (ix2 p q)) := by
    funext a; apply Fin.ext
    match a with
    | ⟨0, _⟩ => show win3_2.index t (0 : Fin 2) * 4000 + 1 * p.val = win3_4.index t (0 : Fin 2) * 4000 + 1 * p.val; omega
    | ⟨1, _⟩ => show win3_2.index t (1 : Fin 2) * 1 + 1 * 0 = 0; omega
  have h3 : ((cfg3.win 3).blk t).view.emb (ix2 (0 : Fin 1) q)
      = Cert.Net.rowEntry (((cfg3.win 4).blk t).view.emb (ix2 p q)) := by
    funext a; apply Fin.ext
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega
  rw [h0, h1, h2, h3]

/-- A place of the array is in point t's tile iff each coordinate is in the tile's range on its axis. -/
theorem reluMemTile3 (t : Fin cfg3.N) (i : S100000x128.Idx) :
    i ∈ ((cfg3.win 4).blk t).view.set ↔ ∀ a : Fin 2, win3_4.index t a * S4000x128.size a ≤ (i a).val
      ∧ (i a).val < win3_4.index t a * S4000x128.size a + S4000x128.size a := by
  show i ∈ ((View.whole main_v75).slice (win3_4.rect t)).set ↔ _
  rw [View.set_slice_whole, Rect.mem_set_unit]
  exact Iff.rfl

/-- Row r of the array lies in the tile of point r / 4000, and every point writes its tile back. -/
theorem reluCover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have ht : (i 0).val / 4000 < 25 := by omega
  obtain ⟨-, -, -, -, -, -, -, -, e8, e9⟩ := reluIdx3 ⟨(i 0).val / 4000, ht⟩
  have e8' : win3_4.index ⟨(i 0).val / 4000, ht⟩ (0 : Fin 2) = (i 0).val / 4000 := e8
  refine ⟨⟨(i 0).val / 4000, ht⟩, flush3_4 _, ?_⟩
  rw [reluMemTile3]
  intro a
  match a with
  | ⟨0, _⟩ =>
    show win3_4.index ⟨(i 0).val / 4000, ht⟩ (0 : Fin 2) * 4000 ≤ (i 0).val
      ∧ (i 0).val < win3_4.index ⟨(i 0).val / 4000, ht⟩ (0 : Fin 2) * 4000 + 4000
    omega
  | ⟨1, _⟩ =>
    show win3_4.index ⟨(i 0).val / 4000, ht⟩ (1 : Fin 2) * 128 ≤ (i 1).val
      ∧ (i 1).val < win3_4.index ⟨(i 0).val / 4000, ht⟩ (1 : Fin 2) * 128 + 128
    omega

theorem relu3_final (c : Dev nD) :
    (dat3 (F := Ideal) V c).arrAt 4 cfg3.N = Cert.Net.selfLoopRelu (V c main_v45) (V c main_v73) (V c main_v13) (V c main_v74) :=
  (dat3 (F := Ideal) V c).arrAt_eq_of_cover 4
    (Cert.Net.selfLoopRelu (V c main_v45) (V c main_v73) (V c main_v13) (V c main_v74))
    (fun t _ => reluFlushed3 V c t) reluCover3

end Cert.KernelIdeal.RegionValue

end
-- ==== Proof.LayerLaw.lean ====
/-
  The reference's spelling of one layer's combination is the function `selfLoopRelu`.

  On the host the reciprocal-degree vector d (length 100000) is laid along the columns by two broadcasts
  ([100000] → [100000, 1] → [100000, 128]) and the bias b (length 128) along the rows by two broadcasts
  ([128] → [1, 128] → [100000, 128]); the zero that the maximum clips at is the zero constant broadcast.  Read at an
  entry (r, j) these are d(r), b(j) and 0, which is what `selfLoopRelu` reads from the column and the row that the
  same vectors are when recast to [100000, 1] and [1, 128].
-/
import proofs.«117243_j2456721293532_1_alg».proof.Proof.Spec
import Idealize.ShloMosaic.Lib.Pipeline.Value
import Idealize.ShloMosaic.Lib.ValueIdx
import Idealize.ShloMosaic.PureOps.Ideal.Laws

noncomputable section

namespace Cert.Net

open Idealize.ShloMosaic Idealize.ShloMosaic.ValueIdx

/-- The length-100000 index under row `r` of an entry. -/
abbrev vecRow (i : (⟨2, ![100000, 128]⟩ : Shape).Idx) : (⟨1, ![100000]⟩ : Shape).Idx := fun a => match a with
  | ⟨0, _⟩ => ⟨(i 0).val, (i 0).isLt⟩

/-- The length-128 index under column `j` of an entry. -/
abbrev vecCol (i : (⟨2, ![100000, 128]⟩ : Shape).Idx) : (⟨1, ![128]⟩ : Shape).Idx := fun a => match a with
  | ⟨0, _⟩ => ⟨(i 1).val, (i 1).isLt⟩

/-- A vector of length 100000 laid along the columns, read at (r, j), is its entry r. -/
theorem bcastCols_apply (d : (⟨1, ![100000]⟩ : Shape).Idx → EReal)
    (hd1 : (⟨1, ![100000]⟩ : Shape).BroadcastsInDim ⟨2, ![100000, 1]⟩ (![0] : Fin 1 → Fin 2))
    (hd2 : (⟨2, ![100000, 1]⟩ : Shape).BroadcastsInDim ⟨2, ![100000, 128]⟩ (![0, 1] : Fin 2 → Fin 2))
    (i : (⟨2, ![100000, 128]⟩ : Shape).Idx) :
    broadcastInDim ⟨2, ![100000, 128]⟩ ![0, 1] hd2 (broadcastInDim ⟨2, ![100000, 1]⟩ ![0] hd1 d) i = d (vecRow i) := by
  refine (broadcastInDim_apply _ hd2 _ i (colEntry i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ hd1 d (colEntry i) (vecRow i) (fun a => match a with
    | ⟨0, _⟩ => by show (i 0).val = if (100000 : Nat) = 1 then 0 else (i 0).val; rw [if_neg (by decide)])

/-- A vector of length 128 laid along the rows, read at (r, j), is its entry j. -/
theorem bcastRows_apply (b : (⟨1, ![128]⟩ : Shape).Idx → EReal)
    (hb1 : (⟨1, ![128]⟩ : Shape).BroadcastsInDim ⟨2, ![1, 128]⟩ (![1] : Fin 1 → Fin 2))
    (hb2 : (⟨2, ![1, 128]⟩ : Shape).BroadcastsInDim ⟨2, ![100000, 128]⟩ (![0, 1] : Fin 2 → Fin 2))
    (i : (⟨2, ![100000, 128]⟩ : Shape).Idx) :
    broadcastInDim ⟨2, ![100000, 128]⟩ ![0, 1] hb2 (broadcastInDim ⟨2, ![1, 128]⟩ ![1] hb1 b) i = b (vecCol i) := by
  refine (broadcastInDim_apply _ hb2 _ i (rowEntry i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ hb1 b (rowEntry i) (vecCol i) (fun a => match a with
    | ⟨0, _⟩ => by show (i 1).val = if (128 : Nat) = 1 then 0 else (i 1).val; rw [if_neg (by decide)])

/-- The same vector recast as a column [100000, 1], read at (r, 0), is its entry r. -/
theorem castCol_apply (d : (⟨1, ![100000]⟩ : Shape).Idx → EReal)
    (hc : (⟨1, ![100000]⟩ : Shape).ShapeCasts ⟨2, ![100000, 1]⟩) (i : (⟨2, ![100000, 128]⟩ : Shape).Idx) :
    shapeCast ⟨2, ![100000, 1]⟩ d hc (colEntry i) = d (vecRow i) :=
  shapeCast_apply d hc (colEntry i) (vecRow i) (by
    rw [Shape.rowMajor_val_two, Shape.rowMajor_val_one]
    show (i 0).val = (i 0).val * 1 + 0
    omega)

/-- The same vector recast as a row [1, 128], read at (0, j), is its entry j. -/
theorem castRow_apply (b : (⟨1, ![128]⟩ : Shape).Idx → EReal)
    (hr : (⟨1, ![128]⟩ : Shape).ShapeCasts ⟨2, ![1, 128]⟩) (i : (⟨2, ![100000, 128]⟩ : Shape).Idx) :
    shapeCast ⟨2, ![1, 128]⟩ b hr (rowEntry i) = b (vecCol i) :=
  shapeCast_apply b hr (rowEntry i) (vecCol i) (by
    rw [Shape.rowMajor_val_two, Shape.rowMajor_val_one]
    show (i 1).val = 0 * 128 + (i 1).val
    omega)

/-- The host's layer, operation by operation, is `selfLoopRelu` of the recast column and row. -/
theorem hostLayer_eq
    (h agg : (⟨2, ![100000, 128]⟩ : Shape).Idx → EReal) (d : (⟨1, ![100000]⟩ : Shape).Idx → EReal)
    (b : (⟨1, ![128]⟩ : Shape).Idx → EReal)
    (hd1 : (⟨1, ![100000]⟩ : Shape).BroadcastsInDim ⟨2, ![100000, 1]⟩ (![0] : Fin 1 → Fin 2))
    (hd2 : (⟨2, ![100000, 1]⟩ : Shape).BroadcastsInDim ⟨2, ![100000, 128]⟩ (![0, 1] : Fin 2 → Fin 2))
    (hb1 : (⟨1, ![128]⟩ : Shape).BroadcastsInDim ⟨2, ![1, 128]⟩ (![1] : Fin 1 → Fin 2))
    (hb2 : (⟨2, ![1, 128]⟩ : Shape).BroadcastsInDim ⟨2, ![100000, 128]⟩ (![0, 1] : Fin 2 → Fin 2))
    (hz : (⟨0, ![]⟩ : Shape).BroadcastsInDim ⟨2, ![100000, 128]⟩ (![] : Fin 0 → Fin 2))
    (hc : (⟨1, ![100000]⟩ : Shape).ShapeCasts ⟨2, ![100000, 1]⟩) (hr : (⟨1, ![128]⟩ : Shape).ShapeCasts ⟨2, ![1, 128]⟩) :
    (maximumf (F := Ideal) (φ := .f32)
        (addf (addf agg (mulf h (broadcastInDim ⟨2, ![100000, 128]⟩ ![0, 1] hd2 (broadcastInDim ⟨2, ![100000, 1]⟩ ![0] hd1 d))))
          (broadcastInDim ⟨2, ![100000, 128]⟩ ![0, 1] hb2 (broadcastInDim ⟨2, ![1, 128]⟩ ![1] hb1 b)))
        (broadcastInDim ⟨2, ![100000, 128]⟩ ![] hz (constant (F := Ideal) ⟨0, ![]⟩ .f32 0x00000000#32))
      : (⟨2, ![100000, 128]⟩ : Shape).Idx → EReal)
    = selfLoopRelu h agg (shapeCast ⟨2, ![100000, 1]⟩ d hc) (shapeCast ⟨2, ![1, 128]⟩ b hr) := by
  funext i
  have ez : broadcastInDim ⟨2, ![100000, 128]⟩ ![] hz (constant (F := Ideal) ⟨0, ![]⟩ .f32 0x00000000#32) i = (0 : EReal) :=
    (broadcastInDim_apply _ hz _ i ix0 (fun a => a.elim0)).trans Ideal.ofBits_zero_f32
  show max ((agg i + h i * broadcastInDim ⟨2, ![100000, 128]⟩ ![0, 1] hd2 (broadcastInDim ⟨2, ![100000, 1]⟩ ![0] hd1 d) i)
        + broadcastInDim ⟨2, ![100000, 128]⟩ ![0, 1] hb2 (broadcastInDim ⟨2, ![1, 128]⟩ ![1] hb1 b) i)
      (broadcastInDim ⟨2, ![100000, 128]⟩ ![] hz (constant (F := Ideal) ⟨0, ![]⟩ .f32 0x00000000#32) i)
    = max ((agg i + h i * shapeCast ⟨2, ![100000, 1]⟩ d hc (colEntry i)) + shapeCast ⟨2, ![1, 128]⟩ b hr (rowEntry i)) 0
  rw [bcastCols_apply d hd1 hd2 i, bcastRows_apply b hb1 hb2 i, ez, castCol_apply d hc i, castRow_apply b hr i]

end Cert.Net

end
-- ==== Proof.RefStages.lean ====
/-
  The reference's stages that the kernel computes in its own regions, as the two array functions: its two matrix
  products are `rowsTimes`, and each layer's chain of host operations (two broadcasts of the reciprocal degrees, the
  product, two sums, two broadcasts of the bias, the maximum with a broadcast zero) is `selfLoopRelu` of the
  product, the neighbours' sum, and the reciprocal degrees and the bias recast as a column and a row.
-/
import proofs.«117243_j2456721293532_1_alg».proof.Proof.Gen.ReferenceIdeal.Read
import proofs.«117243_j2456721293532_1_alg».proof.Proof.Spec
import proofs.«117243_j2456721293532_1_alg».proof.Proof.LayerLaw

noncomputable section

namespace Cert.ReferenceIdeal.Stages

open Cert.ReferenceIdeal Cert.ReferenceIdeal.Gen Cert.ReferenceIdeal.Read Idealize.ShloMosaic Idealize.ShloMosaic.TcCoe Idealize.SL.Sem

/-- The first product x · W1. -/
theorem proj1_eq (x0 : (⟨S100000x128, .f32⟩ : BufTy).Contents (Elt Ideal)) (x2 : (⟨S128x128, .f32⟩ : BufTy).Contents (Elt Ideal)) :
    val_main_v13 (F := Ideal) x0 x2 = Cert.Net.rowsTimes x0 x2 :=
  funext fun i => (val_main_v13_apply x0 x2 i).trans rfl

/-- The first layer: max((agg1 + h1 · d) + b1, 0). -/
theorem layer1_eq (hc : S100000.ShapeCasts S100000x1) (hr : S128.ShapeCasts S1x128)
    (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v49 (F := Ideal) x0 x1 x2 x3
      = Cert.Net.selfLoopRelu (val_main_v13 (F := Ideal) x0 x2) (val_main_v41 (F := Ideal) x0 x1 x2)
          (shapeCast S100000x1 (val_main_v12 (F := Ideal) x1) hc) (shapeCast S1x128 x3 hr) := by
  unfold val_main_v49 val_main_v48 val_main_v45 val_main_v44 val_main_v47 val_main_v46 val_main_v43 val_main_v42
    val_main_call0_v0 val_main_call0_cst
  exact Cert.Net.hostLayer_eq _ _ _ _ _ _ _ _ _ hc hr

/-- The second product out1 · W2. -/
theorem proj2_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v50 (F := Ideal) x0 x1 x2 x3 x4 = Cert.Net.rowsTimes (val_main_v49 (F := Ideal) x0 x1 x2 x3) x4 :=
  funext fun i => (val_main_v50_apply x0 x1 x2 x3 x4 i).trans rfl

/-- The second layer: max((agg2 + h2 · d) + b2, 0). -/
theorem layer2_eq (hc : S100000.ShapeCasts S100000x1) (hr : S128.ShapeCasts S1x128)
    (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v86 (F := Ideal) x0 x1 x2 x3 x4 x5
      = Cert.Net.selfLoopRelu (val_main_v50 (F := Ideal) x0 x1 x2 x3 x4) (val_main_v78 (F := Ideal) x0 x1 x2 x3 x4)
          (shapeCast S100000x1 (val_main_v12 (F := Ideal) x1) hc) (shapeCast S1x128 x5 hr) := by
  unfold val_main_v86 val_main_v85 val_main_v82 val_main_v81 val_main_v84 val_main_v83 val_main_v80 val_main_v79
    val_main_call1_v0 val_main_call1_cst
  exact Cert.Net.hostLayer_eq _ _ _ _ _ _ _ _ _ hc hr

end Cert.ReferenceIdeal.Stages

end
-- ==== Proof.Thread.lean ====
/-
  The kernel program's buffers, boundary by boundary, as the reference's stages of the arguments.

  @main is: host operations (the edge lists, the degrees, their reciprocal square roots and reciprocals), the first
  product, host operations (the neighbours' sum of the first product), the first layer's combination, the second
  product, host operations (the neighbours' sum of the second product), the second layer's combination, and the host
  tail (the output projection and the logistic function).  Each buffer a later segment reads is followed from the
  boundary where it is written to the boundary where it is read; a host stretch writes its own results and keeps every
  other buffer, a region writes its output array and keeps every other buffer.  What each stretch computes is, term for
  term, what the reference computes at the same place; what each region computes is the array function of its inputs.
-/
import proofs.«117243_j2456721293532_1_alg».proof.Proof.Gen.KernelIdeal.Frame
import proofs.«117243_j2456721293532_1_alg».proof.Proof.Gen.ReferenceIdeal.Read
import proofs.«117243_j2456721293532_1_alg».proof.Proof.Spec
import proofs.«117243_j2456721293532_1_alg».proof.Proof.MatmulRegion
import proofs.«117243_j2456721293532_1_alg».proof.Proof.ReluRegion
import proofs.«117243_j2456721293532_1_alg».proof.Proof.RefStages
import Idealize.ShloMosaic.Lib.StableHlo.Run

set_option maxRecDepth 16384

noncomputable section

namespace Cert.KernelIdeal.Thread

open Cert.KernelIdeal Cert.KernelIdeal.Gen Cert.KernelIdeal.RegionValue
open Cert.ReferenceIdeal.Read Cert.ReferenceIdeal.Stages
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The arguments, which nothing writes -/

abbrev A0 : (⟨S100000x128, .f32⟩ : BufTy).Contents (Elt Ideal) := m ((c : Thread nD τ).loc main_arg0)
abbrev A1 : (⟨S2x1600000, .i32⟩ : BufTy).Contents (Elt Ideal) := m ((c : Thread nD τ).loc main_arg1)
abbrev A2 : (⟨S128x128, .f32⟩ : BufTy).Contents (Elt Ideal) := m ((c : Thread nD τ).loc main_arg2)
abbrev A3 : (⟨S128, .f32⟩ : BufTy).Contents (Elt Ideal) := m ((c : Thread nD τ).loc main_arg3)
abbrev A4 : (⟨S128x128, .f32⟩ : BufTy).Contents (Elt Ideal) := m ((c : Thread nD τ).loc main_arg4)
abbrev A5 : (⟨S128, .f32⟩ : BufTy).Contents (Elt Ideal) := m ((c : Thread nD τ).loc main_arg5)
abbrev A6 : (⟨S128x1, .f32⟩ : BufTy).Contents (Elt Ideal) := m ((c : Thread nD τ).loc main_arg6)
abbrev A7 : (⟨S1, .f32⟩ : BufTy).Contents (Elt Ideal) := m ((c : Thread nD τ).loc main_arg7)

/-! ## After the first host stretch -/

theorem W1_v1 : W1 m ρ c (Proc.devRef .tc main_v1) = val_main_v1 (F := Ideal) (A1 m c) := by
  show StableHlo.after hostOps0 (W0 m ρ c) (Proc.devRef .tc main_v1) = _
  after_results <;> rfl

theorem W1_v3 : W1 m ρ c (Proc.devRef .tc main_v3) = val_main_v3 (F := Ideal) (A1 m c) := by
  show StableHlo.after hostOps0 (W0 m ρ c) (Proc.devRef .tc main_v3) = _
  after_results <;> rfl

theorem W1_v10 : W1 m ρ c (Proc.devRef .tc main_v10) = val_main_v10 (F := Ideal) (A1 m c) := by
  show StableHlo.after hostOps0 (W0 m ρ c) (Proc.devRef .tc main_v10) = _
  after_results <;> rfl

theorem W1_v13 : W1 m ρ c (Proc.devRef .tc main_v13)
    = shapeCast S100000x1 (val_main_v12 (F := Ideal) (A1 m c)) Facts₀.shapeCasts_S100000_S100000x1 := by
  show StableHlo.after hostOps0 (W0 m ρ c) (Proc.devRef .tc main_v13) = _
  after_results <;> rfl

theorem W1_arg0 : W1 m ρ c (Proc.devRef .tc main_arg0) = A0 m c := by
  show StableHlo.after hostOps0 (W0 m ρ c) (Proc.devRef .tc main_arg0) = _
  after_results <;> rfl

theorem W1_arg2 : W1 m ρ c (Proc.devRef .tc main_arg2) = A2 m c := by
  show StableHlo.after hostOps0 (W0 m ρ c) (Proc.devRef .tc main_arg2) = _
  after_results <;> rfl

theorem W1_arg3 : W1 m ρ c (Proc.devRef .tc main_arg3) = A3 m c := by
  show StableHlo.after hostOps0 (W0 m ρ c) (Proc.devRef .tc main_arg3) = _
  after_results <;> rfl

theorem W1_arg4 : W1 m ρ c (Proc.devRef .tc main_arg4) = A4 m c := by
  show StableHlo.after hostOps0 (W0 m ρ c) (Proc.devRef .tc main_arg4) = _
  after_results <;> rfl

theorem W1_arg5 : W1 m ρ c (Proc.devRef .tc main_arg5) = A5 m c := by
  show StableHlo.after hostOps0 (W0 m ρ c) (Proc.devRef .tc main_arg5) = _
  after_results <;> rfl

theorem W1_arg6 : W1 m ρ c (Proc.devRef .tc main_arg6) = A6 m c := by
  show StableHlo.after hostOps0 (W0 m ρ c) (Proc.devRef .tc main_arg6) = _
  after_results <;> rfl

theorem W1_arg7 : W1 m ρ c (Proc.devRef .tc main_arg7) = A7 m c := by
  show StableHlo.after hostOps0 (W0 m ρ c) (Proc.devRef .tc main_arg7) = _
  after_results <;> rfl

/-! ## After the first product: its array is x · W1, every other buffer as before -/

theorem W2_v14 : W2 m ρ c (Proc.devRef .tc main_v14) = val_main_v13 (F := Ideal) (A0 m c) (A2 m c) := by
  refine (W2_arr m ρ c 2).trans ((matmul0_final (V1 m ρ) c).trans ?_)
  show Cert.Net.rowsTimes (W1 m ρ c (Proc.devRef .tc main_arg0)) (W1 m ρ c (Proc.devRef .tc main_arg2)) = _
  rw [W1_arg0, W1_arg2, proj1_eq]

theorem W2_v1 : W2 m ρ c (Proc.devRef .tc main_v1) = val_main_v1 (F := Ideal) (A1 m c) :=
  (W2_of_ne m ρ c main_v1 (by decide)).trans (W1_v1 m ρ c)
theorem W2_v3 : W2 m ρ c (Proc.devRef .tc main_v3) = val_main_v3 (F := Ideal) (A1 m c) :=
  (W2_of_ne m ρ c main_v3 (by decide)).trans (W1_v3 m ρ c)
theorem W2_v10 : W2 m ρ c (Proc.devRef .tc main_v10) = val_main_v10 (F := Ideal) (A1 m c) :=
  (W2_of_ne m ρ c main_v10 (by decide)).trans (W1_v10 m ρ c)
theorem W2_v13 : W2 m ρ c (Proc.devRef .tc main_v13)
    = shapeCast S100000x1 (val_main_v12 (F := Ideal) (A1 m c)) Facts₀.shapeCasts_S100000_S100000x1 :=
  (W2_of_ne m ρ c main_v13 (by decide)).trans (W1_v13 m ρ c)
theorem W2_arg3 : W2 m ρ c (Proc.devRef .tc main_arg3) = A3 m c := (W2_of_ne m ρ c main_arg3 (by decide)).trans (W1_arg3 m ρ c)
theorem W2_arg4 : W2 m ρ c (Proc.devRef .tc main_arg4) = A4 m c := (W2_of_ne m ρ c main_arg4 (by decide)).trans (W1_arg4 m ρ c)
theorem W2_arg5 : W2 m ρ c (Proc.devRef .tc main_arg5) = A5 m c := (W2_of_ne m ρ c main_arg5 (by decide)).trans (W1_arg5 m ρ c)
theorem W2_arg6 : W2 m ρ c (Proc.devRef .tc main_arg6) = A6 m c := (W2_of_ne m ρ c main_arg6 (by decide)).trans (W1_arg6 m ρ c)
theorem W2_arg7 : W2 m ρ c (Proc.devRef .tc main_arg7) = A7 m c := (W2_of_ne m ρ c main_arg7 (by decide)).trans (W1_arg7 m ρ c)

/-! ## After the second host stretch: the neighbours' sum of the first product, and the bias as a row -/

theorem W3_v42 : W3 m ρ c (Proc.devRef .tc main_v42) = val_main_v41 (F := Ideal) (A0 m c) (A1 m c) (A2 m c) := by
  show StableHlo.after hostOps1 (W2 m ρ c) (Proc.devRef .tc main_v42) = _
  after_results_simp
  rw [W2_v1, W2_v3, W2_v10, W2_v14]
  rfl

theorem W3_v43 : W3 m ρ c (Proc.devRef .tc main_v43) = shapeCast S1x128 (A3 m c) Facts₀.shapeCasts_S128_S1x128 := by
  show StableHlo.after hostOps1 (W2 m ρ c) (Proc.devRef .tc main_v43) = _
  after_results
  rw [W2_arg3]
  rfl

theorem W3_v14 : W3 m ρ c (Proc.devRef .tc main_v14) = val_main_v13 (F := Ideal) (A0 m c) (A2 m c) := by
  refine Eq.trans ?_ (W2_v14 m ρ c)
  show StableHlo.after hostOps1 (W2 m ρ c) (Proc.devRef .tc main_v14) = _
  after_results <;> rfl

theorem W3_v13 : W3 m ρ c (Proc.devRef .tc main_v13)
    = shapeCast S100000x1 (val_main_v12 (F := Ideal) (A1 m c)) Facts₀.shapeCasts_S100000_S100000x1 := by
  refine Eq.trans ?_ (W2_v13 m ρ c)
  show StableHlo.after hostOps1 (W2 m ρ c) (Proc.devRef .tc main_v13) = _
  after_results <;> rfl

theorem W3_v1 : W3 m ρ c (Proc.devRef .tc main_v1) = val_main_v1 (F := Ideal) (A1 m c) := by
  refine Eq.trans ?_ (W2_v1 m ρ c)
  show StableHlo.after hostOps1 (W2 m ρ c) (Proc.devRef .tc main_v1) = _
  after_results <;> rfl

theorem W3_v3 : W3 m ρ c (Proc.devRef .tc main_v3) = val_main_v3 (F := Ideal) (A1 m c) := by
  refine Eq.trans ?_ (W2_v3 m ρ c)
  show StableHlo.after hostOps1 (W2 m ρ c) (Proc.devRef .tc main_v3) = _
  after_results <;> rfl

theorem W3_v10 : W3 m ρ c (Proc.devRef .tc main_v10) = val_main_v10 (F := Ideal) (A1 m c) := by
  refine Eq.trans ?_ (W2_v10 m ρ c)
  show StableHlo.after hostOps1 (W2 m ρ c) (Proc.devRef .tc main_v10) = _
  after_results <;> rfl

theorem W3_arg4 : W3 m ρ c (Proc.devRef .tc main_arg4) = A4 m c := by
  refine Eq.trans ?_ (W2_arg4 m ρ c)
  show StableHlo.after hostOps1 (W2 m ρ c) (Proc.devRef .tc main_arg4) = _
  after_results <;> rfl

theorem W3_arg5 : W3 m ρ c (Proc.devRef .tc main_arg5) = A5 m c := by
  refine Eq.trans ?_ (W2_arg5 m ρ c)
  show StableHlo.after hostOps1 (W2 m ρ c) (Proc.devRef .tc main_arg5) = _
  after_results <;> rfl

theorem W3_arg6 : W3 m ρ c (Proc.devRef .tc main_arg6) = A6 m c := by
  refine Eq.trans ?_ (W2_arg6 m ρ c)
  show StableHlo.after hostOps1 (W2 m ρ c) (Proc.devRef .tc main_arg6) = _
  after_results <;> rfl

theorem W3_arg7 : W3 m ρ c (Proc.devRef .tc main_arg7) = A7 m c := by
  refine Eq.trans ?_ (W2_arg7 m ρ c)
  show StableHlo.after hostOps1 (W2 m ρ c) (Proc.devRef .tc main_arg7) = _
  after_results <;> rfl

/-! ## After the first layer's combination: its array is the reference's first hidden layer -/

theorem W4_v44 : W4 m ρ c (Proc.devRef .tc main_v44)
    = val_main_v49 (F := Ideal) (A0 m c) (A1 m c) (A2 m c) (A3 m c) := by
  refine (W4_arr m ρ c 4).trans ((relu1_final (V3 m ρ) c).trans ?_)
  show Cert.Net.selfLoopRelu (W3 m ρ c (Proc.devRef .tc main_v14)) (W3 m ρ c (Proc.devRef .tc main_v42))
      (W3 m ρ c (Proc.devRef .tc main_v13)) (W3 m ρ c (Proc.devRef .tc main_v43)) = _
  rw [W3_v14, W3_v42, W3_v13, W3_v43]
  exact (layer1_eq Facts₀.shapeCasts_S100000_S100000x1 Facts₀.shapeCasts_S128_S1x128 _ _ _ _).symm

/-- The reciprocal-degree column is an input array of the region: read and never written back. -/
theorem W4_v13 : W4 m ρ c (Proc.devRef .tc main_v13)
    = shapeCast S100000x1 (val_main_v12 (F := Ideal) (A1 m c)) Facts₀.shapeCasts_S100000_S100000x1 :=
  ((W4_arr m ρ c 2).trans (((dat1 (V3 m ρ) c).arrAt_in 2 rfl _).trans (A_eq1 (V3 m ρ) c 2))).trans (W3_v13 m ρ c)

theorem W4_v1 : W4 m ρ c (Proc.devRef .tc main_v1) = val_main_v1 (F := Ideal) (A1 m c) :=
  (W4_of_ne m ρ c main_v1 (by decide)).trans (W3_v1 m ρ c)
theorem W4_v3 : W4 m ρ c (Proc.devRef .tc main_v3) = val_main_v3 (F := Ideal) (A1 m c) :=
  (W4_of_ne m ρ c main_v3 (by decide)).trans (W3_v3 m ρ c)
theorem W4_v10 : W4 m ρ c (Proc.devRef .tc main_v10) = val_main_v10 (F := Ideal) (A1 m c) :=
  (W4_of_ne m ρ c main_v10 (by decide)).trans (W3_v10 m ρ c)
theorem W4_arg4 : W4 m ρ c (Proc.devRef .tc main_arg4) = A4 m c := (W4_of_ne m ρ c main_arg4 (by decide)).trans (W3_arg4 m ρ c)
theorem W4_arg5 : W4 m ρ c (Proc.devRef .tc main_arg5) = A5 m c := (W4_of_ne m ρ c main_arg5 (by decide)).trans (W3_arg5 m ρ c)
theorem W4_arg6 : W4 m ρ c (Proc.devRef .tc main_arg6) = A6 m c := (W4_of_ne m ρ c main_arg6 (by decide)).trans (W3_arg6 m ρ c)
theorem W4_arg7 : W4 m ρ c (Proc.devRef .tc main_arg7) = A7 m c := (W4_of_ne m ρ c main_arg7 (by decide)).trans (W3_arg7 m ρ c)

/-! ## After the second product -/

theorem W5_v45 : W5 m ρ c (Proc.devRef .tc main_v45)
    = val_main_v50 (F := Ideal) (A0 m c) (A1 m c) (A2 m c) (A3 m c) (A4 m c) := by
  refine (W5_arr m ρ c 2).trans ((matmul2_final (V4 m ρ) c).trans ?_)
  show Cert.Net.rowsTimes (W4 m ρ c (Proc.devRef .tc main_v44)) (W4 m ρ c (Proc.devRef .tc main_arg4)) = _
  rw [W4_v44, W4_arg4, proj2_eq]

theorem W5_v1 : W5 m ρ c (Proc.devRef .tc main_v1) = val_main_v1 (F := Ideal) (A1 m c) :=
  (W5_of_ne m ρ c main_v1 (by decide)).trans (W4_v1 m ρ c)
theorem W5_v3 : W5 m ρ c (Proc.devRef .tc main_v3) = val_main_v3 (F := Ideal) (A1 m c) :=
  (W5_of_ne m ρ c main_v3 (by decide)).trans (W4_v3 m ρ c)
theorem W5_v10 : W5 m ρ c (Proc.devRef .tc main_v10) = val_main_v10 (F := Ideal) (A1 m c) :=
  (W5_of_ne m ρ c main_v10 (by decide)).trans (W4_v10 m ρ c)
theorem W5_v13 : W5 m ρ c (Proc.devRef .tc main_v13)
    = shapeCast S100000x1 (val_main_v12 (F := Ideal) (A1 m c)) Facts₀.shapeCasts_S100000_S100000x1 :=
  (W5_of_ne m ρ c main_v13 (by decide)).trans (W4_v13 m ρ c)
theorem W5_arg5 : W5 m ρ c (Proc.devRef .tc main_arg5) = A5 m c := (W5_of_ne m ρ c main_arg5 (by decide)).trans (W4_arg5 m ρ c)
theorem W5_arg6 : W5 m ρ c (Proc.devRef .tc main_arg6) = A6 m c := (W5_of_ne m ρ c main_arg6 (by decide)).trans (W4_arg6 m ρ c)
theorem W5_arg7 : W5 m ρ c (Proc.devRef .tc main_arg7) = A7 m c := (W5_of_ne m ρ c main_arg7 (by decide)).trans (W4_arg7 m ρ c)

/-! ## After the third host stretch: the neighbours' sum of the second product, and the second bias as a row -/

theorem W6_v73 : W6 m ρ c (Proc.devRef .tc main_v73)
    = val_main_v78 (F := Ideal) (A0 m c) (A1 m c) (A2 m c) (A3 m c) (A4 m c) := by
  show StableHlo.after hostOps3 (W5 m ρ c) (Proc.devRef .tc main_v73) = _
  after_results_simp
  rw [W5_v1, W5_v3, W5_v10, W5_v45]
  rfl

theorem W6_v74 : W6 m ρ c (Proc.devRef .tc main_v74) = shapeCast S1x128 (A5 m c) Facts₀.shapeCasts_S128_S1x128 := by
  show StableHlo.after hostOps3 (W5 m ρ c) (Proc.devRef .tc main_v74) = _
  after_results
  rw [W5_arg5]
  rfl

theorem W6_v45 : W6 m ρ c (Proc.devRef .tc main_v45)
    = val_main_v50 (F := Ideal) (A0 m c) (A1 m c) (A2 m c) (A3 m c) (A4 m c) := by
  refine Eq.trans ?_ (W5_v45 m ρ c)
  show StableHlo.after hostOps3 (W5 m ρ c) (Proc.devRef .tc main_v45) = _
  after_results <;> rfl

theorem W6_v13 : W6 m ρ c (Proc.devRef .tc main_v13)
    = shapeCast S100000x1 (val_main_v12 (F := Ideal) (A1 m c)) Facts₀.shapeCasts_S100000_S100000x1 := by
  refine Eq.trans ?_ (W5_v13 m ρ c)
  show StableHlo.after hostOps3 (W5 m ρ c) (Proc.devRef .tc main_v13) = _
  after_results <;> rfl

theorem W6_arg6 : W6 m ρ c (Proc.devRef .tc main_arg6) = A6 m c := by
  refine Eq.trans ?_ (W5_arg6 m ρ c)
  show StableHlo.after hostOps3 (W5 m ρ c) (Proc.devRef .tc main_arg6) = _
  after_results <;> rfl

theorem W6_arg7 : W6 m ρ c (Proc.devRef .tc main_arg7) = A7 m c := by
  refine Eq.trans ?_ (W5_arg7 m ρ c)
  show StableHlo.after hostOps3 (W5 m ρ c) (Proc.devRef .tc main_arg7) = _
  after_results <;> rfl

/-! ## After the second layer's combination -/

theorem W7_v75 : W7 m ρ c (Proc.devRef .tc main_v75)
    = val_main_v86 (F := Ideal) (A0 m c) (A1 m c) (A2 m c) (A3 m c) (A4 m c) (A5 m c) := by
  refine (W7_arr m ρ c 4).trans ((relu3_final (V6 m ρ) c).trans ?_)
  show Cert.Net.selfLoopRelu (W6 m ρ c (Proc.devRef .tc main_v45)) (W6 m ρ c (Proc.devRef .tc main_v73))
      (W6 m ρ c (Proc.devRef .tc main_v13)) (W6 m ρ c (Proc.devRef .tc main_v74)) = _
  rw [W6_v45, W6_v73, W6_v13, W6_v74]
  exact (layer2_eq Facts₀.shapeCasts_S100000_S100000x1 Facts₀.shapeCasts_S128_S1x128 _ _ _ _ _ _).symm

theorem W7_arg6 : W7 m ρ c (Proc.devRef .tc main_arg6) = A6 m c := (W7_of_ne m ρ c main_arg6 (by decide)).trans (W6_arg6 m ρ c)
theorem W7_arg7 : W7 m ρ c (Proc.devRef .tc main_arg7) = A7 m c := (W7_of_ne m ρ c main_arg7 (by decide)).trans (W6_arg7 m ρ c)

/-! ## After the host tail: the result -/

/-- The kernel program's result buffer ends at the reference's result stage of the arguments. -/
theorem W8_v86 : W8 m ρ c (Proc.devRef .tc main_v86)
    = val_main_v97 (F := Ideal) (A0 m c) (A1 m c) (A2 m c) (A3 m c) (A4 m c) (A5 m c) (A6 m c) (A7 m c) := by
  show StableHlo.after hostOps4 (W7 m ρ c) (Proc.devRef .tc main_v86) = _
  after_results
  rw [W7_v75, W7_arg6, W7_arg7]
  rfl

end Cert.KernelIdeal.Thread

end
-- ==== Proof.lean ====
/-
  A two-layer graph convolution with a logistic read-out, on 100000 nodes with 128 features and 1600000 directed edges:
  the kernel program against its jnp reference, over the extended reals.

  Both programs compute, from the edge list, the degrees deg = 1 + (number of incoming edges), their reciprocal square
  roots and their reciprocals; then twice a layer  out = max((agg + h · (1/deg)) + b, 0)  with  h = x · W  and
  agg(i, ·) = Σ over edges (s → i) of h(s, ·) · deg(s)^(-1/2) · deg(i)^(-1/2);  then  1 / (1 + exp(−(out2 · Wout + bout))).
  The kernel program runs the two products  x · W  and the two combinations  max((agg + h · (1/deg)) + b, 0)  as
  pipelined regions over row tiles of 4000 rows; everything else (the gathers, the scatter-sums, the read-out) is the
  same host operations in both programs.  So the claim comes down to: each product region leaves the matrix product
  (the bf16 casts are the identity on extended reals, the matrix unit's accumulation into zero is the plain sum), each
  combining region leaves the layer's combination (a column broadcast along the rows of a tile is the reciprocal degree
  of the tile's row, a row broadcast down the tile is the bias), and between the regions the two programs apply the
  same operations to equal arrays.  No arithmetic law beyond 0 + x = x is used, so the inputs' finiteness is not needed.

  The frames of the two kernel programs are the generated ones; the reference's frame is its generated run with the
  result dropped; the idealization rewrote nothing, so `preserves` is trivial.
-/
import proofs.«117243_j2456721293532_1_alg».proof.Defs
import proofs.«117243_j2456721293532_1_alg».proof.Proof.Gen.Kernel
import proofs.«117243_j2456721293532_1_alg».proof.Proof.Gen.Kernel.Skeleton
import proofs.«117243_j2456721293532_1_alg».proof.Proof.Gen.Kernel.Launch
import proofs.«117243_j2456721293532_1_alg».proof.Proof.Gen.Kernel.Points
import proofs.«117243_j2456721293532_1_alg».proof.Proof.Gen.Kernel.Frame
import proofs.«117243_j2456721293532_1_alg».proof.Proof.Gen.KernelIdeal
import proofs.«117243_j2456721293532_1_alg».proof.Proof.Gen.KernelIdeal.Skeleton
import proofs.«117243_j2456721293532_1_alg».proof.Proof.Gen.KernelIdeal.Launch
import proofs.«117243_j2456721293532_1_alg».proof.Proof.Gen.KernelIdeal.Points
import proofs.«117243_j2456721293532_1_alg».proof.Proof.Gen.KernelIdeal.Frame
import proofs.«117243_j2456721293532_1_alg».proof.Proof.Gen.ReferenceIdeal
import proofs.«117243_j2456721293532_1_alg».proof.Proof.Gen.Pre_finite_inputs
import proofs.«117243_j2456721293532_1_alg».proof.Proof.Gen.ReferenceIdeal.Run
import proofs.«117243_j2456721293532_1_alg».proof.Proof.Gen.ReferenceIdeal.Read
import proofs.«117243_j2456721293532_1_alg».proof.Proof.KernelRun
import proofs.«117243_j2456721293532_1_alg».proof.Proof.Thread
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program's result buffer ends at the reference's last stage of the kernel's arguments; the reference's
    ends at the same stage of its own arguments, which agree. -/
theorem algebraic : Cert.algebraic_KernelIdeal_ReferenceIdeal := by
  intro m ρ m' ρ' _ hagree
  refine ⟨fun c => Cert.KernelIdeal.Gen.W8 m ρ c (Proc.devRef .tc Cert.KernelIdeal.main_v86),
    Cert.KernelIdeal.GenRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  show Cert.ReferenceIdeal.Value.res_main_v97 m' c
    = Cert.KernelIdeal.Gen.W8 m ρ c (Proc.devRef .tc Cert.KernelIdeal.main_v86)
  rw [Cert.ReferenceIdeal.Read.val_main_v97_eq, Cert.KernelIdeal.Thread.W8_v86, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
